-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096 : Shape := ⟨3, ![1, 16, 4096]⟩
abbrev S14336x4096 : Shape := ⟨2, ![14336, 4096]⟩
abbrev S_ : Shape := ⟨0, ![]⟩

class Facts : Prop where
  bcast_S_S1x16x4096 : S_.BroadcastsInDim S1x16x4096 (![] : Fin 0 → Fin S1x16x4096.rank)
  reducesTo_S1x16x4096_S_d0_1_2 : S1x16x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_

variable [Facts]

def fn {F : FTy → Type} [FloatOps F] (main_arg0 : FVec F S1x16x4096 .f32) (main_arg1 : FVec F S14336x4096 .f32) : IVec S_ 1 :=
  let main_v0 : FVec F S1x16x4096 .f32 := Host.absf main_arg0
  let main_cst : FVec F S_ .f32 := constant S_ .f32 0x7F800000#32
  let main_v1 : FVec F S1x16x4096 .f32 := broadcastInDim S1x16x4096 ![] bcast_S_S1x16x4096 main_cst
  let main_v2 : IVec S1x16x4096 1 := cmpf .olt main_v0 main_v1
  let main_c : IVec S_ 1 := constantI S_ 1 1#1
  let main_v3 : IVec S_ 1 := (fun x v => Host.reduce IntOp.andi x v reducesTo_S1x16x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  main_v8
-- ==== Kernel.lean ====
abbrev S1x16x4096 : Shape := ⟨3, ![1, 16, 4096]⟩
abbrev S14336x4096 : Shape := ⟨2, ![14336, 4096]⟩
abbrev S16x4096 : Shape := ⟨2, ![16, 4096]⟩
abbrev S16x14336 : Shape := ⟨2, ![16, 14336]⟩
abbrev S1024x4096 : Shape := ⟨2, ![1024, 4096]⟩
abbrev S16x1024 : Shape := ⟨2, ![16, 1024]⟩
abbrev S1024x256 : Shape := ⟨2, ![1024, 256]⟩
abbrev S1024 : Shape := ⟨1, ![1024]⟩
abbrev S1024x1 : Shape := ⟨2, ![1024, 1]⟩
abbrev S16x256 : Shape := ⟨2, ![16, 256]⟩
abbrev S1x16x14336 : Shape := ⟨3, ![1, 16, 14336]⟩

abbrev nBuf : Space → Nat
  | .hbm => 5
  | .vmem => 5
  | .smem => 0
  | _ => 0

abbrev bufTy : (tb : Table) → Fin (tcTables nBuf tb) → BufTy
  | .hbm, ⟨0, _⟩ => ⟨S1x16x4096, .f32⟩
  | .hbm, ⟨1, _⟩ => ⟨S14336x4096, .f32⟩
  | .hbm, ⟨2, _⟩ => ⟨S16x4096, .f32⟩
  | .hbm, ⟨3, _⟩ => ⟨S16x14336, .f32⟩
  | .hbm, ⟨4, _⟩ => ⟨S1x16x14336, .f32⟩
  | .local _ .vmem, ⟨0, _⟩ => ⟨S16x4096, .f32⟩
  | .local _ .vmem, ⟨1, _⟩ => ⟨S1024x4096, .f32⟩
  | .local _ .vmem, ⟨2, _⟩ => ⟨S1024x4096, .f32⟩
  | .local _ .vmem, ⟨3, _⟩ => ⟨S16x1024, .f32⟩
  | .local _ .vmem, ⟨4, _⟩ => ⟨S16x1024, .f32⟩
  | _, _ => ⟨S1x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x16x4096_S16x4096 : S1x16x4096.ShapeCasts S16x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  bitsLt_bf16_f32 : FTy.bits .bf16 < FTy.bits .f32
  inb_S1024x4096_S1024x256_0_0 : ∀ a, (![0, 0] : Fin 2 → Nat) a + S1024x256.size a ≤ S1024x4096.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  slices_S16x4096_o0_0_S16x256 : S16x4096.Slices ![0, 0] S16x256
  inb_S1024x4096_S1024x256_0_256 : ∀ a, (![0, 256] : Fin 2 → Nat) a + S1024x256.size a ≤ S1024x4096.size a
  slices_S16x4096_o0_256_S16x256 : S16x4096.Slices ![0, 256] S16x256
  inb_S1024x4096_S1024x256_0_512 : ∀ a, (![0, 512] : Fin 2 → Nat) a + S1024x256.size a ≤ S1024x4096.size a
  slices_S16x4096_o0_512_S16x256 : S16x4096.Slices ![0, 512] S16x256
  inb_S1024x4096_S1024x256_0_768 : ∀ a, (![0, 768] : Fin 2 → Nat) a + S1024x256.size a ≤ S1024x4096.size a
  slices_S16x4096_o0_768_S16x256 : S16x4096.Slices ![0, 768] S16x256
  inb_S1024x4096_S1024x256_0_1024 : ∀ a, (![0, 1024] : Fin 2 → Nat) a + S1024x256.size a ≤ S1024x4096.size a
  slices_S16x4096_o0_1024_S16x256 : S16x4096.Slices ![0, 1024] S16x256
  inb_S1024x4096_S1024x256_0_1280 : ∀ a, (![0, 1280] : Fin 2 → Nat) a + S1024x256.size a ≤ S1024x4096.size a
  slices_S16x4096_o0_1280_S16x256 : S16x4096.Slices ![0, 1280] S16x256
  inb_S1024x4096_S1024x256_0_1536 : ∀ a, (![0, 1536] : Fin 2 → Nat) a + S1024x256.size a ≤ S1024x4096.size a
  slices_S16x4096_o0_1536_S16x256 : S16x4096.Slices ![0, 1536] S16x256
  inb_S1024x4096_S1024x256_0_1792 : ∀ a, (![0, 1792] : Fin 2 → Nat) a + S1024x256.size a ≤ S1024x4096.size a
  slices_S16x4096_o0_1792_S16x256 : S16x4096.Slices ![0, 1792] S16x256
  inb_S1024x4096_S1024x256_0_2048 : ∀ a, (![0, 2048] : Fin 2 → Nat) a + S1024x256.size a ≤ S1024x4096.size a
  slices_S16x4096_o0_2048_S16x256 : S16x4096.Slices ![0, 2048] S16x256
  inb_S1024x4096_S1024x256_0_2304 : ∀ a, (![0, 2304] : Fin 2 → Nat) a + S1024x256.size a ≤ S1024x4096.size a
  slices_S16x4096_o0_2304_S16x256 : S16x4096.Slices ![0, 2304] S16x256
  inb_S1024x4096_S1024x256_0_2560 : ∀ a, (![0, 2560] : Fin 2 → Nat) a + S1024x256.size a ≤ S1024x4096.size a
  slices_S16x4096_o0_2560_S16x256 : S16x4096.Slices ![0, 2560] S16x256
  inb_S1024x4096_S1024x256_0_2816 : ∀ a, (![0, 2816] : Fin 2 → Nat) a + S1024x256.size a ≤ S1024x4096.size a
  slices_S16x4096_o0_2816_S16x256 : S16x4096.Slices ![0, 2816] S16x256
  inb_S1024x4096_S1024x256_0_3072 : ∀ a, (![0, 3072] : Fin 2 → Nat) a + S1024x256.size a ≤ S1024x4096.size a
  slices_S16x4096_o0_3072_S16x256 : S16x4096.Slices ![0, 3072] S16x256
  inb_S1024x4096_S1024x256_0_3328 : ∀ a, (![0, 3328] : Fin 2 → Nat) a + S1024x256.size a ≤ S1024x4096.size a
  slices_S16x4096_o0_3328_S16x256 : S16x4096.Slices ![0, 3328] S16x256
  inb_S1024x4096_S1024x256_0_3584 : ∀ a, (![0, 3584] : Fin 2 → Nat) a + S1024x256.size a ≤ S1024x4096.size a
  slices_S16x4096_o0_3584_S16x256 : S16x4096.Slices ![0, 3584] S16x256
  inb_S1024x4096_S1024x256_0_3840 : ∀ a, (![0, 3840] : Fin 2 → Nat) a + S1024x256.size a ≤ S1024x4096.size a
  slices_S16x4096_o0_3840_S16x256 : S16x4096.Slices ![0, 3840] S16x256
  inb_S16x1024_S16x1024_0_0 : ∀ a, (![0, 0] : Fin 2 → Nat) a + S16x1024.size a ≤ S16x1024.size a
  h_S16x1024 : 0 < S16x1024.numel
  bcast_S16x14336_S1x16x14336_1_2 : S16x14336.BroadcastsInDim S1x16x14336 (![1, 2] : Fin 2 → Fin S1x16x14336.rank)
  dot_S16x256_S1024x256_S16x1024_1_1_0_0_n_n_wf : DotDims.WF S16x256 S1024x256 S16x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S14336x4096.size a
  hwx0_1 : ∀ i : grid0.Coords, EltTy.bits .f32 = 32 ∨ (Rect.block (s := S14336x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x14336.size a
  hwx0_2 : ∀ i : grid0.Coords, EltTy.bits .f32 = 32 ∨ (Rect.block (s := S16x14336) S16x1024.size (cc0_transform_2 i) (hinb0_2 i)).WholeWords (EltTy.packing .f32)

variable [Facts₀]

def dot_S16x256_S1024x256_S16x1024_1_1_0_0_n_n : DotDims S16x256 S1024x256 S16x1024 where
  lhsContracting := [1]
  rhsContracting := [1]
  lhsNonContracting := [0]
  rhsNonContracting := [0]
  lhsBatch := []
  rhsBatch := []
  wf := dot_S16x256_S1024x256_S16x1024_1_1_0_0_n_n_wf

abbrev win0_0 : Pipeline.Window sig grid0 :=
  Pipeline.Window.ofSpec (Memref.whole main_v0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x16x4096 : Shape := ⟨3, ![1, 16, 4096]⟩
abbrev S14336x4096 : Shape := ⟨2, ![14336, 4096]⟩
abbrev S14336x16x256 : Shape := ⟨3, ![14336, 16, 256]⟩
abbrev S_ : Shape := ⟨0, ![]⟩
abbrev S14336x16 : Shape := ⟨2, ![14336, 16]⟩
abbrev S14336x16x1 : Shape := ⟨3, ![14336, 16, 1]⟩
abbrev S16x4096 : Shape := ⟨2, ![16, 4096]⟩
abbrev S16x14336 : Shape := ⟨2, ![16, 14336]⟩
abbrev S1x16x14336 : Shape := ⟨3, ![1, 16, 14336]⟩

abbrev nBuf : Space → Nat
  | .hbm => 30
  | .vmem => 0
  | .smem => 0
  | _ => 0

abbrev bufTy : (tb : Table) → Fin (tcTables nBuf tb) → BufTy
  | .hbm, ⟨0, _⟩ => ⟨S1x16x4096, .f32⟩
  | .hbm, ⟨1, _⟩ => ⟨S14336x4096, .f32⟩
  | .hbm, ⟨2, _⟩ => ⟨S14336x16x256, .f32⟩
  | .hbm, ⟨3, _⟩ => ⟨S14336x16x256, .f32⟩
  | .hbm, ⟨4, _⟩ => ⟨S_, .f32⟩
  | .hbm, ⟨5, _⟩ => ⟨S14336x16, .f32⟩
  | .hbm, ⟨6, _⟩ => ⟨S14336x16x1, .f32⟩
  | .hbm, ⟨7, _⟩ => ⟨S_, .f32⟩
  | .hbm, ⟨8, _⟩ => ⟨S14336x16x1, .f32⟩
  | .hbm, ⟨9, _⟩ => ⟨S14336x16x1, .f32⟩
  | .hbm, ⟨10, _⟩ => ⟨S_, .f32⟩
  | .hbm, ⟨11, _⟩ => ⟨S14336x16x1, .f32⟩
  | .hbm, ⟨12, _⟩ => ⟨S14336x16x1, .f32⟩
  | .hbm, ⟨13, _⟩ => ⟨S14336x16x256, .f32⟩
  | .hbm, ⟨14, _⟩ => ⟨S14336x16x256, .f32⟩
  | .hbm, ⟨15, _⟩ => ⟨S14336x16x256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S14336x16x256, .f32⟩
  | .hbm, ⟨20, _⟩ => ⟨S14336x16x256, .f32⟩
  | .hbm, ⟨21, _⟩ => ⟨S_, .f32⟩
  | .hbm, ⟨22, _⟩ => ⟨S14336x16x256, .f32⟩
  | .hbm, ⟨23, _⟩ => ⟨S14336x16x256, .f32⟩
  | .hbm, ⟨24, _⟩ => ⟨S14336x16x256, .f32⟩
  | .hbm, ⟨25, _⟩ => ⟨S14336x16x256, .f32⟩
  | .hbm, ⟨26, _⟩ => ⟨S14336x4096, .f32⟩
  | .hbm, ⟨27, _⟩ => ⟨S16x4096, .f32⟩
  | .hbm, ⟨28, _⟩ => ⟨S16x14336, .f32⟩
  | .hbm, ⟨29, _⟩ => ⟨S1x16x14336, .f32⟩
  | _, _ => ⟨S1x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  shapeCasts_S14336x4096_S14336x16x256 : S14336x4096.ShapeCasts S14336x16x256
  reducesTo_S14336x16x256_S14336x16_d2 : S14336x16x256.ReducesTo [2] S14336x16
  h_S_ : 0 < S_.numel
  bcast_S14336x16_S14336x16x1_0_1 : S14336x16.BroadcastsInDim S14336x16x1 (![0, 1] : Fin 2 → Fin S14336x16x1.rank)
  bcast_S_S14336x16x1 : S_.BroadcastsInDim S14336x16x1 (![] : Fin 0 → Fin S14336x16x1.rank)
  bcast_S14336x16x1_S14336x16x256_0_1_2 : S14336x16x1.BroadcastsInDim S14336x16x256 (![0, 1, 2] : Fin 3 → Fin S14336x16x256.rank)
  bcast_S_S14336x16x256 : S_.BroadcastsInDim S14336x16x256 (![] : Fin 0 → Fin S14336x16x256.rank)
  shapeCasts_S14336x16x256_S14336x4096 : S14336x16x256.ShapeCasts S14336x4096
  shapeCasts_S1x16x4096_S16x4096 : S1x16x4096.ShapeCasts S16x4096
  bcast_S16x14336_S1x16x14336_1_2 : S16x14336.BroadcastsInDim S1x16x14336 (![1, 2] : Fin 2 → Fin S1x16x14336.rank)
  dot_S16x4096_S14336x4096_S16x14336_1_1_0_0_n_n_wf : DotDims.WF S16x4096 S14336x4096 S16x14336 [1] [1] [0] [0] [] []

variable [Facts₀]

def dot_S16x4096_S14336x4096_S16x14336_1_1_0_0_n_n : DotDims S16x4096 S14336x4096 S16x14336 where
  lhsContracting := [1]
  rhsContracting := [1]
  lhsNonContracting := [0]
  rhsNonContracting := [0]
  lhsBatch := []
  rhsBatch := []
  wf := dot_S16x4096_S14336x4096_S16x14336_1_1_0_0_n_n_wf

class Facts : Prop extends Facts₀ where

variable [Facts]
-- ==== Proof.GroupQuant.lean ====
/-
  Symmetric 4-bit group quantisation of a weight matrix along its input axis, read on the extended
  reals, and the product of an activation matrix with the dequantised weights.

  A weight row of 4096 entries is cut into 16 groups of 256 consecutive entries.  A group `r` has the
  scale `σ(r) = max (max_j |r j| / 7) ε`, and its entry `j` is dequantised to
  `clip (round (r j / σ(r))) · σ(r)`, the rounding to nearest with ties to even and the clip to
  `[-8, 7]`.  The output entry `(s, o)` is the inner product of activation row `s` with the
  dequantised weight row `o`, written here as the sum over the 16 groups of the groups' own inner
  products.  The two laws at the end are all the algebra the comparison needs: a sum over the 4096
  columns is the double sum over groups and positions, and a sum over the 16 groups is the chain
  `0 + a₀ + a₁ + … + a₁₅` an accumulator started at zero runs through.  Both hold in any commutative
  additive monoid, so no entry has to be finite.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.GroupQuant

open Idealize.ShloMosaic Idealize.ShloMosaic.ValueIdx

/-- The largest absolute value of a group, `|a| = max a (-a)`, folded from `-∞`. -/
def groupMax (row : Fin 256 → EReal) : EReal :=
  (Finset.univ : Finset (Fin 256)).fold max (Ideal.ofBits .f32 0xFF800000#32) (fun j => max (row j) (-(row j)))

/-- A group's scale: its largest absolute value over 7, but at least `ε`. -/
def groupScale (row : Fin 256 → EReal) : EReal :=
  max (Ideal.div (groupMax row) (Ideal.ofBits .f32 0x40E00000#32)) (Ideal.ofBits .f32 0x3089705F#32)

/-- Entry `j` of a group, quantised to an integer of `[-8, 7]` and scaled back. -/
def groupDeq (row : Fin 256 → EReal) (j : Fin 256) : EReal :=
  min (Ideal.ofBits .f32 0x40E00000#32) (max (Ideal.ofBits .f32 0xC1000000#32)
    (Ideal.liftRound Ideal.roundHalfEven (Ideal.div (row j) (groupScale row)))) * groupScale row

/-- The activations `[1, 16, 4096]`, the weights `[14336, 4096]`, the product `[16, 14336]`. -/
abbrev SX : Shape := ⟨3, ![1, 16, 4096]⟩
abbrev SW : Shape := ⟨2, ![14336, 4096]⟩
abbrev SO : Shape := ⟨2, ![16, 14336]⟩

/-- Position `j` of group `g` is column `256 g + j`. -/
def col (g : Fin 16) (j : Fin 256) : Fin 4096 :=
  ⟨256 * g.val + j.val, by have := g.isLt; have := j.isLt; omega⟩

theorem col_val (g : Fin 16) (j : Fin 256) : (col g j).val = 256 * g.val + j.val := rfl

/-- Group `g` of weight row `o`. -/
def wgroup (w : SW.Idx → EReal) (o : Fin 14336) (g : Fin 16) : Fin 256 → EReal :=
  fun j => w (ix2 o (col g j))

/-- Group `g`'s share of output entry `(s, o)`. -/
def groupDot (x : SX.Idx → EReal) (w : SW.Idx → EReal) (s : Fin 16) (o : Fin 14336) (g : Fin 16) : EReal :=
  ∑ j : Fin 256, x (ix3 0 s (col g j)) * groupDeq (wgroup w o g) j

/-- The product of the activations with the dequantised weights. -/
def G (x : SX.Idx → EReal) (w : SW.Idx → EReal) : SO.Idx → EReal :=
  fun i => ∑ g : Fin 16, groupDot x w (i 0) (i 1) g

/-- A sum over the 4096 columns is the sum over the groups of the sums over their positions. -/
theorem sum_cols {M : Type*} [AddCommMonoid M] (f : Fin 4096 → M) :
    ∑ k, f k = ∑ g : Fin 16, ∑ j : Fin 256, f (col g j) := by
  rw [← Equiv.sum_comp (finProdFinEquiv : Fin 16 × Fin 256 ≃ Fin (16 * 256)) f, Fintype.sum_prod_type]
  refine Finset.sum_congr rfl fun g _ => Finset.sum_congr rfl fun j _ => congrArg f (Fin.ext ?_)
  show j.val + 256 * g.val = 256 * g.val + j.val
  omega

/-- A sum over the 16 groups is what an accumulator started at zero holds after adding them in order. -/
theorem sum_groups {M : Type*} [AddCommMonoid M] (a : Fin 16 → M) :
    ∑ g, a g = 0 + a 0 + a 1 + a 2 + a 3 + a 4 + a 5 + a 6 + a 7 + a 8 + a 9 + a 10 + a 11 + a 12 + a 13 + a 14 + a 15 := by
  simp only [Fin.sum_univ_castSucc, Fin.sum_univ_zero]
  rfl

end Cert.GroupQuant

end
-- ==== Proof.RefValue.lean ====
/-
  The reference's product is the specification.

  The reference reshapes the weights to `[14336, 16, 256]`, so that group `g` of row `o` is the last axis at
  `(o, g, ·)`; takes each group's largest absolute value by a reduction over that axis; forms the scale, the rounded and
  clipped quotient and its product with the scale entry by entry; reshapes back to `[14336, 4096]`; and contracts the
  4096 columns against the activations.  Read at an index, column `k` of the dequantised weights is position `k mod 256`
  of group `k / 256`, and the sum over the 4096 columns is the sum over the groups of the sums over their positions.
-/
import proofs.«129214_j54803782697499_1_alg».proof.Proof.Gen.ReferenceIdeal.Read
import proofs.«129214_j54803782697499_1_alg».proof.Proof.GroupQuant
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.GroupQuant

/-- The reshaped weights at `(o, g, j)` are the weights at row `o`, column `256 g + j`. -/
theorem w3_apply (w : FVec Ideal S14336x4096 .f32) (o : Fin 14336) (g : Fin 16) (j : Fin 256) :
    val_main_v0 (F := Ideal) w (ix3 o g j) = w (ix2 o (col g j)) := by
  rw [val_main_v0_apply]
  refine congrArg w (funext fun a => Fin.ext ?_)
  match a with
  | ⟨0, _⟩ =>
    show ((o.val * 16 + g.val) * 256 + j.val) / 4096 = o.val
    have := g.isLt; have := j.isLt; omega
  | ⟨1, _⟩ =>
    show ((o.val * 16 + g.val) * 256 + j.val) % 4096 = 256 * g.val + j.val
    have := g.isLt; have := j.isLt; omega

/-- The reduced index `(o, g)` with position `j` put back on the reduced axis is `(o, g, j)`. -/
theorem lift_group (h : S14336x16x256.Reduces [2] S14336x16) (o : Fin 14336) (g : Fin 16) (j : Fin 256) :
    h.lift (ix2 o g) j = ix3 o g j := by
  funext a
  match a with
  | ⟨0, _⟩ => rfl
  | ⟨1, _⟩ => rfl
  | ⟨2, _⟩ => rfl

/-- The reduction's shape fact in the form that names the reduced axis's positions. -/
theorem reduces_groups : S14336x16x256.Reduces [2] S14336x16 := by decide

/-- Position `j` of what the reduction at `(o, g)` folds over: the absolute value of the group's entry `j`. -/
theorem absGroup_apply (w : FVec Ideal S14336x4096 .f32) (o : Fin 14336) (g : Fin 16) (j : Fin 256) :
    (val_main_v1 (F := Ideal) w ∘ reduces_groups.lift (ix2 o g)) j = max (wgroup w o g j) (-(wgroup w o g j)) := by
  show FloatOps.absf (F := Ideal) (φ := .f32) (val_main_v0 (F := Ideal) w (reduces_groups.lift (ix2 o g) j)) = _
  rw [lift_group, w3_apply, Ideal.absf_def]
  rfl

/-- The reduction at `(o, g)` is the largest absolute value of group `g` of row `o`. -/
theorem groupMax_apply (w : FVec Ideal S14336x4096 .f32) (o : Fin 14336) (g : Fin 16) :
    val_main_v2 (F := Ideal) w (ix2 o g) = groupMax (wgroup w o g) := by
  unfold val_main_v2
  rw [Host.reduce_eq_fold_single FloatOps.maximumf _ _ reducesTo_S14336x16x256_S14336x16_d2 reduces_groups h_S_]
  show Finset.fold max (Ideal.ofBits .f32 0xFF800000#32) (val_main_v1 (F := Ideal) w ∘ reduces_groups.lift (ix2 o g)) Finset.univ = _
  unfold groupMax
  refine congrArg (fun f => (Finset.univ : Finset (Fin 256)).fold max (Ideal.ofBits .f32 0xFF800000#32) f) ?_
  funext j
  exact absGroup_apply w o g j

/-- The scale, kept as a unit last axis, at `(o, g, ·)`. -/
theorem scale_apply (w : FVec Ideal S14336x4096 .f32) (o : Fin 14336) (g : Fin 16) (z : Fin 1) :
    val_main_v7 (F := Ideal) w (ix3 o g z) = groupScale (wgroup w o g) := by
  have e3 : idx_main_v3 (ix3 o g z) = ix2 o g := funext fun a => by
    match a with
    | ⟨0, _⟩ => rfl
    | ⟨1, _⟩ => rfl
  rw [val_main_v7_apply, val_main_v5_apply, val_main_v3_apply, val_main_v4_apply, val_main_v6_apply,
    val_main_cst_0_apply, val_main_cst_1_apply, e3, groupMax_apply]
  rfl

/-- The dequantised weights, still grouped, at `(o, g, j)`. -/
theorem deq3_apply (w : FVec Ideal S14336x4096 .f32) (o : Fin 14336) (g : Fin 16) (j : Fin 256) :
    val_main_v13 (F := Ideal) w (ix3 o g j) = groupDeq (wgroup w o g) j := by
  have e8 : idx_main_v8 (ix3 o g j) = ix3 o g 0 := funext fun a => by
    match a with
    | ⟨0, _⟩ => rfl
    | ⟨1, _⟩ => rfl
    | ⟨2, _⟩ => rfl
  have e12 : idx_main_v12 (ix3 o g j) = ix3 o g 0 := funext fun a => by
    match a with
    | ⟨0, _⟩ => rfl
    | ⟨1, _⟩ => rfl
    | ⟨2, _⟩ => rfl
  rw [val_main_v13_apply, val_main_v11_apply, val_main_v12_apply, val_main_call1_v4_apply, val_main_call1_v3_apply,
    val_main_cst_3_apply, val_main_call1_v2_apply, val_main_call1_v1_apply, val_main_call1_v0_apply, val_main_cst_2_apply,
    val_main_v10_apply, val_main_v9_apply, val_main_v8_apply, w3_apply, e8, e12, scale_apply]
  rfl

/-- Column `256 g + j` of the dequantised weights, reshaped back to `[14336, 4096]`. -/
theorem wdq_apply (w : FVec Ideal S14336x4096 .f32) (o : Fin 14336) (g : Fin 16) (j : Fin 256) :
    val_main_v14 (F := Ideal) w (ix2 o (col g j)) = groupDeq (wgroup w o g) j := by
  have e : idx_main_v14 (ix2 o (col g j)) = ix3 o g j := funext fun a => Fin.ext (by
    match a with
    | ⟨0, _⟩ =>
      show (o.val * 4096 + (256 * g.val + j.val)) / 4096 = o.val
      have := g.isLt; have := j.isLt; omega
    | ⟨1, _⟩ =>
      show (o.val * 4096 + (256 * g.val + j.val)) / 256 % 16 = g.val
      have := g.isLt; have := j.isLt; omega
    | ⟨2, _⟩ =>
      show (o.val * 4096 + (256 * g.val + j.val)) % 256 = j.val
      have := g.isLt; have := j.isLt; omega)
  rw [val_main_v14_apply, e, deq3_apply]

/-- The activations with their leading unit axis dropped. -/
theorem x2_apply (x : FVec Ideal S1x16x4096 .f32) (s : Fin 16) (k : Fin 4096) :
    val_main_v15 (F := Ideal) x (ix2 s k) = x (ix3 0 s k) := by
  rw [val_main_v15_apply]
  refine congrArg x (funext fun a => Fin.ext ?_)
  match a with
  | ⟨0, _⟩ => rfl
  | ⟨1, _⟩ =>
    show (s.val * 4096 + k.val) / 4096 % 16 = s.val
    have := s.isLt; have := k.isLt; omega
  | ⟨2, _⟩ =>
    show (s.val * 4096 + k.val) % 4096 = k.val
    have := s.isLt; have := k.isLt; omega

/-- The reference's product is the specification: the contraction over the 4096 columns, regrouped. -/
theorem product_eq (x : FVec Ideal S1x16x4096 .f32) (w : FVec Ideal S14336x4096 .f32) :
    val_main_v16 (F := Ideal) x w = G x w := by
  funext i
  obtain ⟨s, o, rfl⟩ : ∃ (s : Fin 16) (o : Fin 14336), i = ix2 s o := ⟨i 0, i 1, eq_ix2 i⟩
  rw [val_main_v16_apply, sum_cols]
  show _ = ∑ g : Fin 16, groupDot x w s o g
  refine Finset.sum_congr rfl fun g _ => ?_
  unfold groupDot
  refine Finset.sum_congr rfl fun j _ => ?_
  have el : lidx_main_v16 (ix2 s o) (col g j) = ix2 s (col g j) := funext fun a => by
    match a with
    | ⟨0, _⟩ => rfl
    | ⟨1, _⟩ => rfl
  have er : ridx_main_v16 (ix2 s o) (col g j) = ix2 o (col g j) := funext fun a => by
    match a with
    | ⟨0, _⟩ => rfl
    | ⟨1, _⟩ => rfl
  rw [el, er, x2_apply, wdq_apply]

end Cert.ReferenceIdeal.RefValue

end
-- ==== Proof.BlockValue.lean ====
/-
  One group's share of a kernel block, read at an index.

  At a grid point the kernel holds a block of 1024 weight rows.  For each of the 16 groups it takes the
  256 columns of the group (a 1024 × 256 piece), forms every row's scale as a column (`blockScale`),
  dequantises the piece row by row (`blockDeq`), and multiplies the 16 × 256 slice of the activations
  that faces the group by the transposed piece (`groupProd`).  On the extended reals entry `(s, p)` of
  that product is the inner product, over the group's 256 positions, of activation row `s` with the
  dequantised group of block row `p`: the row's maximum is a fold of `max` over the row, the changes of
  float format are the identity, and the matrix product into a zero accumulator is the plain sum.
-/
import proofs.«129214_j54803782697499_1_alg».proof.Proof.Gen.KernelIdeal
import proofs.«129214_j54803782697499_1_alg».proof.Proof.GroupQuant
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.GroupQuant

variable {F : FTy → Type} [FloatOps F]

/-- Every row's scale, as a column: the row's largest absolute value over 7, at least `ε`. -/
def blockScale (w : Vec F S1024x256 .f32) : FVec F S1024x1 .f32 :=
  maximumf (divf (shapeCast S1024x1 (multiReduction .maximumf [1] S1024 (absf w) 0xFF800000#32 reduces_S1024x256_S1024 (.inl rfl) rfl) shapeCasts_S1024_S1024x1)
    (broadcast S1024x1 (Scalar.ofBits .f32 0x40E00000#32))) (broadcast S1024x1 (Scalar.ofBits .f32 0x3089705F#32))

/-- The piece dequantised: each entry over its row's scale, rounded, clipped to `[-8, 7]`, times the scale. -/
def blockDeq (w : Vec F S1024x256 .f32) : FVec F S1024x256 .bf16 :=
  truncf .bf16 (mulf (minimumf (broadcast S1024x256 (Scalar.ofBits .f32 0x40E00000#32))
      (maximumf (broadcast S1024x256 (Scalar.ofBits .f32 0xC1000000#32))
        (roundeven (divf w (broadcastTo S1024x256 (blockScale w) broadcasts_S1024x1_S1024x256)))))
    (broadcastTo S1024x256 (blockScale w) broadcasts_S1024x1_S1024x256)) bitsLt_bf16_f32

/-- The activations' 256 columns from `off` times the transposed dequantised piece, into zeros. -/
def groupProd (xb : FVec F S16x4096 .bf16) (off : Nat) (hs : S16x4096.Slices ![0, off] S16x256) (w : Vec F S1024x256 .f32) :
    FVec F S16x1024 .f32 :=
  matmul dot_S16x256_S1024x256_S16x1024_1_1_0_0_n_n none (extractStridedSlice S16x256 ![0, off] xb hs) (blockDeq w)
    (constant S16x1024 .f32 0x00000000#32)

/-! ## At the extended reals -/

/-- The reduced index `p` with position `j` put back on the reduced axis is `(p, j)`. -/
theorem lift_row (p : Fin 1024) (j : Fin 256) :
    (reduces_S1024x256_S1024 : S1024x256.Reduces [1] S1024).lift (ix1 p) j = ix2 p j := by
  funext a
  match a with
  | ⟨0, _⟩ => rfl
  | ⟨1, _⟩ => rfl

/-- Row `p`'s largest absolute value: the fold of `max` from `-∞` over the row's absolute values. -/
theorem rowMax_apply (w : FVec Ideal S1024x256 .f32) (p : Fin 1024) :
    multiReduction .maximumf [1] S1024 (absf w) 0xFF800000#32 reduces_S1024x256_S1024 (.inl rfl) rfl (ix1 p)
      = groupMax (fun j => w (ix2 p j)) := by
  refine (Ideal.multiReduction_maximumf_single (absf w) 0xFF800000#32 reduces_S1024x256_S1024 (.inl rfl) rfl (ix1 p)).trans ?_
  unfold groupMax
  refine congrArg (fun f => (Finset.univ : Finset (Fin 256)).fold max (Ideal.ofBits .f32 0xFF800000#32) f) ?_
  funext j
  exact (congrArg (fun i => FloatOps.absf (w i)) (lift_row p j)).trans (Ideal.absf_def _)

/-- Row `p`'s scale is the scale of the row read as a group. -/
theorem blockScale_apply (w : FVec Ideal S1024x256 .f32) (p : Fin 1024) (z : Fin 1) :
    blockScale (F := Ideal) w (ix2 p z) = groupScale (fun j => w (ix2 p j)) := by
  unfold blockScale groupScale
  rw [maximumf_apply, divf_apply, broadcast_apply, broadcast_apply]
  rw [shapeCast_apply _ shapeCasts_S1024_S1024x1 (ix2 p z) (ix1 p) (by
    rw [Shape.rowMajor_val_one, Shape.rowMajor_val_two]
    show p.val = p.val * 1 + z.val
    have := z.isLt; omega)]
  exact congrArg (fun t => max (Ideal.div t (Ideal.ofBits .f32 0x40E00000#32)) (Ideal.ofBits .f32 0x3089705F#32)) (rowMax_apply w p)

/-- The scale column spread over the 256 positions reads row `p`'s scale at every position. -/
theorem scaleBcast_apply (w : FVec Ideal S1024x256 .f32) (p : Fin 1024) (j : Fin 256) :
    broadcastTo S1024x256 (blockScale (F := Ideal) w) broadcasts_S1024x1_S1024x256 (ix2 p j)
      = groupScale (fun j' => w (ix2 p j')) := by
  rw [broadcastTo_apply _ broadcasts_S1024x1_S1024x256 (ix2 p j) (ix2 p 0) (fun a => by
    match a with
    | ⟨0, _⟩ => show p.val = if (1024 : Nat) = 1 then 0 else p.val; rw [if_neg (by decide)]
    | ⟨1, _⟩ => show 0 = if (1 : Nat) = 1 then 0 else j.val; rw [if_pos rfl])]
  exact blockScale_apply w p 0

/-- Entry `(p, j)` of the dequantised piece is entry `j` of row `p` dequantised as a group. -/
theorem blockDeq_apply (w : FVec Ideal S1024x256 .f32) (p : Fin 1024) (j : Fin 256) :
    blockDeq (F := Ideal) w (ix2 p j) = groupDeq (fun j' => w (ix2 p j')) j := by
  unfold blockDeq groupDeq
  rw [truncf_apply, mulf_apply, minimumf_apply, maximumf_apply, broadcast_apply, broadcast_apply, scaleBcast_apply]
  refine congrArg (fun t => min (Ideal.ofBits .f32 0x40E00000#32) (max (Ideal.ofBits .f32 0xC1000000#32) t) * groupScale (fun j' => w (ix2 p j'))) ?_
  show Ideal.liftRound Ideal.roundHalfEven (Ideal.div (w (ix2 p j))
    (broadcastTo S1024x256 (blockScale (F := Ideal) w) broadcasts_S1024x1_S1024x256 (ix2 p j))) = _
  rw [scaleBcast_apply]

/-! ## The matrix product at an index

The product contracts axis 1 of both operands: at output entry `(s, p)` and contraction position `k` the left operand
is read at `(s, k)` and the right at `(p, k)`. -/

theorem lhs_axis0 (i : S16x1024.Idx) (q : dot_S16x256_S1024x256_S16x1024_1_1_0_0_n_n.contr.Idx) :
    (dot_S16x256_S1024x256_S16x1024_1_1_0_0_n_n.lhsIdx i q 0).val = (i 0).val := by
  unfold DotDims.lhsIdx
  rw [dif_neg (show ¬(0 : Fin S16x256.rank) ∈ dot_S16x256_S1024x256_S16x1024_1_1_0_0_n_n.lhsBatch by decide), dif_pos (show (0 : Fin S16x256.rank) ∈ dot_S16x256_S1024x256_S16x1024_1_1_0_0_n_n.lhsNonContracting by decide)]
  rfl
theorem lhs_axis1 (i : S16x1024.Idx) (q : dot_S16x256_S1024x256_S16x1024_1_1_0_0_n_n.contr.Idx) :
    (dot_S16x256_S1024x256_S16x1024_1_1_0_0_n_n.lhsIdx i q 1).val = (q ⟨0, by decide⟩).val :=
  dot_S16x256_S1024x256_S16x1024_1_1_0_0_n_n.lhsIdx_val_of_single rfl i q
theorem rhs_axis0 (i : S16x1024.Idx) (q : dot_S16x256_S1024x256_S16x1024_1_1_0_0_n_n.contr.Idx) :
    (dot_S16x256_S1024x256_S16x1024_1_1_0_0_n_n.rhsIdx i q 0).val = (i 1).val := by
  unfold DotDims.rhsIdx
  rw [dif_neg (show ¬(0 : Fin S1024x256.rank) ∈ dot_S16x256_S1024x256_S16x1024_1_1_0_0_n_n.rhsBatch by decide), dif_pos (show (0 : Fin S1024x256.rank) ∈ dot_S16x256_S1024x256_S16x1024_1_1_0_0_n_n.rhsNonContracting by decide)]
  rfl
theorem rhs_axis1 (i : S16x1024.Idx) (q : dot_S16x256_S1024x256_S16x1024_1_1_0_0_n_n.contr.Idx) :
    (dot_S16x256_S1024x256_S16x1024_1_1_0_0_n_n.rhsIdx i q 1).val = (q ⟨0, by decide⟩).val :=
  dot_S16x256_S1024x256_S16x1024_1_1_0_0_n_n.rhsIdx_val_of_single rfl i q

/-- Entry `(s, p)` of a group's product: activation row `s` over the group's columns against block row `p`'s
    dequantised group. The group `g` is named by its first column, `off = 256 g`. -/
theorem groupProd_apply (xb : FVec Ideal S16x4096 .bf16) (off : Nat) (hs : S16x4096.Slices ![0, off] S16x256)
    (w : FVec Ideal S1024x256 .f32) (g : Fin 16) (hoff : off = 256 * g.val) (s : Fin 16) (p : Fin 1024) :
    groupProd (F := Ideal) xb off hs w (ix2 s p)
      = ∑ j : Fin 256, xb (ix2 s (col g j)) * groupDeq (fun j' => w (ix2 p j')) j := by
  unfold groupProd
  simp only [matmul]
  rw [Ideal.matmul_constant_zero_apply, ← Equiv.sum_comp (contrEquiv1 dot_S16x256_S1024x256_S16x1024_1_1_0_0_n_n 256 rfl rfl).symm]
  refine Finset.sum_congr rfl fun k _ => ?_
  have hk := contrEquiv1_symm_val dot_S16x256_S1024x256_S16x1024_1_1_0_0_n_n 256 rfl rfl k
  have el : dot_S16x256_S1024x256_S16x1024_1_1_0_0_n_n.lhsIdx (ix2 s p) ((contrEquiv1 dot_S16x256_S1024x256_S16x1024_1_1_0_0_n_n 256 rfl rfl).symm k) = ix2 s k := funext fun a => Fin.ext (by
    match a with
    | ⟨0, _⟩ => exact lhs_axis0 _ _
    | ⟨1, _⟩ => exact (lhs_axis1 _ _).trans hk)
  have er : dot_S16x256_S1024x256_S16x1024_1_1_0_0_n_n.rhsIdx (ix2 s p) ((contrEquiv1 dot_S16x256_S1024x256_S16x1024_1_1_0_0_n_n 256 rfl rfl).symm k) = ix2 p k := funext fun a => Fin.ext (by
    match a with
    | ⟨0, _⟩ => exact rhs_axis0 _ _
    | ⟨1, _⟩ => exact (rhs_axis1 _ _).trans hk)
  rw [el, er, slice2_axis1_apply off xb hs s k (col g k) (by rw [col_val, hoff]), blockDeq_apply]

end Cert.KernelIdeal.BlockValue

end
-- ==== Proof.KernelValue.lean ====
/-
  What the kernel leaves in its result array, and in the result of the program.

  A grid point `t` stages all 16 activation rows and the 1024 weight rows from `1024 t`, and writes back the 16 × 1024
  block of the product whose columns start at `1024 t`.  Its body starts an accumulator at zero and adds the 16 groups'
  products in order, so entry `(s, p)` of the block is the sum over the groups of the inner products of activation row `s`
  with the dequantised group of weight row `1024 t + p`.  The 14 blocks tile the `[16, 14336]` array, so the whole array
  is that function of the activations and the weights; the program then gives it a leading unit axis.
-/
import proofs.«129214_j54803782697499_1_alg».proof.Proof.Gen.KernelIdeal.Frame
import proofs.«129214_j54803782697499_1_alg».proof.Proof.BlockValue
import proofs.«129214_j54803782697499_1_alg».proof.Proof.GroupQuant
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.KernelValue

open Cert.KernelIdeal Cert.KernelIdeal.Gen Cert.KernelIdeal.BlockValue Idealize.ShloMosaic Idealize.ShloMosaic.TcCoe
open Idealize.ShloMosaic.ValueIdx Idealize.SL.Sem Cert.GroupQuant
open Idealize.ShloMosaic.Pipeline (Dat Cfg Window)

variable {F : FTy → Type} [FloatOps F]

theorem hz : (![0, 0] : Fin 2 → Nat) = fun _ => 0 := funext fun a => by fin_cases a <;> rfl

/-! ## The block a grid point writes back -/

/-- The accumulator after the 16 groups, from the staged activations `x0` and the staged weight rows `x1`. -/
def blockAcc (x0 : Vec F S16x4096 .f32) (x1 : Vec F S1024x4096 .f32) : FVec F S16x1024 .f32 :=
  addf (addf (addf (addf (addf (addf (addf (addf (addf (addf (addf (addf (addf (addf (addf (addf (broadcast S16x1024 (Scalar.ofBits .f32 0x00000000#32))
      (groupProd (k0_pay1 (View.ld x0 r0_0)) 0 slices_S16x4096_o0_0_S16x256 (View.ld x1 r0_1)))
      (groupProd (k0_pay1 (View.ld x0 r0_0)) 256 slices_S16x4096_o0_256_S16x256 (View.ld x1 r0_2)))
      (groupProd (k0_pay1 (View.ld x0 r0_0)) 512 slices_S16x4096_o0_512_S16x256 (View.ld x1 r0_3)))
      (groupProd (k0_pay1 (View.ld x0 r0_0)) 768 slices_S16x4096_o0_768_S16x256 (View.ld x1 r0_4)))
      (groupProd (k0_pay1 (View.ld x0 r0_0)) 1024 slices_S16x4096_o0_1024_S16x256 (View.ld x1 r0_5)))
      (groupProd (k0_pay1 (View.ld x0 r0_0)) 1280 slices_S16x4096_o0_1280_S16x256 (View.ld x1 r0_6)))
      (groupProd (k0_pay1 (View.ld x0 r0_0)) 1536 slices_S16x4096_o0_1536_S16x256 (View.ld x1 r0_7)))
      (groupProd (k0_pay1 (View.ld x0 r0_0)) 1792 slices_S16x4096_o0_1792_S16x256 (View.ld x1 r0_8)))
      (groupProd (k0_pay1 (View.ld x0 r0_0)) 2048 slices_S16x4096_o0_2048_S16x256 (View.ld x1 r0_9)))
      (groupProd (k0_pay1 (View.ld x0 r0_0)) 2304 slices_S16x4096_o0_2304_S16x256 (View.ld x1 r0_10)))
      (groupProd (k0_pay1 (View.ld x0 r0_0)) 2560 slices_S16x4096_o0_2560_S16x256 (View.ld x1 r0_11)))
      (groupProd (k0_pay1 (View.ld x0 r0_0)) 2816 slices_S16x4096_o0_2816_S16x256 (View.ld x1 r0_12)))
      (groupProd (k0_pay1 (View.ld x0 r0_0)) 3072 slices_S16x4096_o0_3072_S16x256 (View.ld x1 r0_13)))
      (groupProd (k0_pay1 (View.ld x0 r0_0)) 3328 slices_S16x4096_o0_3328_S16x256 (View.ld x1 r0_14)))
      (groupProd (k0_pay1 (View.ld x0 r0_0)) 3584 slices_S16x4096_o0_3584_S16x256 (View.ld x1 r0_15)))
      (groupProd (k0_pay1 (View.ld x0 r0_0)) 3840 slices_S16x4096_o0_3840_S16x256 (View.ld x1 r0_16))

/-- The body's one store is that accumulator. -/
theorem out_eq (x0 : Vec F S16x4096 .f32) (x1 : Vec F S1024x4096 .f32) : out0_2 x0 x1 = blockAcc x0 x1 := by
  unfold out0_2
  rw [View.canon_unit_zero hz]
  rfl

/-- The activations, cast and truncated, are the activations on the extended reals. -/
theorem xcast_eq (x0 : FVec Ideal S16x4096 .f32) : k0_pay1 (F := Ideal) (View.ld x0 r0_0) = x0 := by
  unfold k0_pay1
  funext i
  rw [truncf_apply, shapeCast_self, View.ld_unit_zero hz]

/-- The 256 columns from `off = 256 g` of the staged weight rows are the rows' group `g`. -/
theorem wpiece_apply (x1 : Vec Ideal S1024x4096 .f32) (off : Nat) (inb : ∀ a, (![0, off] : Fin 2 → Nat) a + S1024x256.size a ≤ S1024x4096.size a)
    (g : Fin 16) (hoff : off = 256 * g.val) (p : Fin 1024) (j : Fin 256) :
    View.ld x1 (Rect.unit (s := S1024x4096) ![0, off] S1024x256.size inb) (ix2 p j) = x1 (ix2 p (col g j)) := by
  refine congrArg x1 (funext fun a => Fin.ext ?_)
  match a with
  | ⟨0, _⟩ => show 0 + 1 * p.val = p.val; omega
  | ⟨1, _⟩ => show off + 1 * j.val = 256 * g.val + j.val; omega

/-- One group's term of the accumulator at `(s, p)`, from the staged blocks. -/
theorem group_term (x0 : FVec Ideal S16x4096 .f32) (x1 : FVec Ideal S1024x4096 .f32) (off : Nat)
    (hs : S16x4096.Slices ![0, off] S16x256) (inb : ∀ a, (![0, off] : Fin 2 → Nat) a + S1024x256.size a ≤ S1024x4096.size a)
    (g : Fin 16) (hoff : off = 256 * g.val) (s : Fin 16) (p : Fin 1024) :
    groupProd (F := Ideal) (k0_pay1 (View.ld x0 r0_0)) off hs (View.ld x1 (Rect.unit (s := S1024x4096) ![0, off] S1024x256.size inb)) (ix2 s p)
      = ∑ j : Fin 256, x0 (ix2 s (col g j)) * groupDeq (fun j' => x1 (ix2 p (col g j'))) j := by
  rw [groupProd_apply _ off hs _ g hoff s p, xcast_eq]
  refine Finset.sum_congr rfl fun j _ => ?_
  exact congrArg (fun r => x0 (ix2 s (col g j)) * groupDeq r j) (funext fun j' => wpiece_apply x1 off inb g hoff p j')

/-- Entry `(s, p)` of the block: the sum over the 16 groups of the groups' inner products. -/
theorem blockAcc_apply (x0 : FVec Ideal S16x4096 .f32) (x1 : FVec Ideal S1024x4096 .f32) (s : Fin 16) (p : Fin 1024) :
    blockAcc (F := Ideal) x0 x1 (ix2 s p)
      = ∑ g : Fin 16, ∑ j : Fin 256, x0 (ix2 s (col g j)) * groupDeq (fun j' => x1 (ix2 p (col g j'))) j := by
  rw [sum_groups]
  unfold blockAcc
  simp only [addf_apply, broadcast_apply]
  rw [show (FloatOps.ofBits (F := Ideal) .f32 0x00000000#32 : EReal) = 0 from Ideal.ofBits_zero_f32]
  rw [group_term x0 x1 0 slices_S16x4096_o0_0_S16x256 inb_S1024x4096_S1024x256_0_0 0 rfl s p,
    group_term x0 x1 256 slices_S16x4096_o0_256_S16x256 inb_S1024x4096_S1024x256_0_256 1 rfl s p,
    group_term x0 x1 512 slices_S16x4096_o0_512_S16x256 inb_S1024x4096_S1024x256_0_512 2 rfl s p,
    group_term x0 x1 768 slices_S16x4096_o0_768_S16x256 inb_S1024x4096_S1024x256_0_768 3 rfl s p,
    group_term x0 x1 1024 slices_S16x4096_o0_1024_S16x256 inb_S1024x4096_S1024x256_0_1024 4 rfl s p,
    group_term x0 x1 1280 slices_S16x4096_o0_1280_S16x256 inb_S1024x4096_S1024x256_0_1280 5 rfl s p,
    group_term x0 x1 1536 slices_S16x4096_o0_1536_S16x256 inb_S1024x4096_S1024x256_0_1536 6 rfl s p,
    group_term x0 x1 1792 slices_S16x4096_o0_1792_S16x256 inb_S1024x4096_S1024x256_0_1792 7 rfl s p,
    group_term x0 x1 2048 slices_S16x4096_o0_2048_S16x256 inb_S1024x4096_S1024x256_0_2048 8 rfl s p,
    group_term x0 x1 2304 slices_S16x4096_o0_2304_S16x256 inb_S1024x4096_S1024x256_0_2304 9 rfl s p,
    group_term x0 x1 2560 slices_S16x4096_o0_2560_S16x256 inb_S1024x4096_S1024x256_0_2560 10 rfl s p,
    group_term x0 x1 2816 slices_S16x4096_o0_2816_S16x256 inb_S1024x4096_S1024x256_0_2816 11 rfl s p,
    group_term x0 x1 3072 slices_S16x4096_o0_3072_S16x256 inb_S1024x4096_S1024x256_0_3072 12 rfl s p,
    group_term x0 x1 3328 slices_S16x4096_o0_3328_S16x256 inb_S1024x4096_S1024x256_0_3328 13 rfl s p,
    group_term x0 x1 3584 slices_S16x4096_o0_3584_S16x256 inb_S1024x4096_S1024x256_0_3584 14 rfl s p,
    group_term x0 x1 3840 slices_S16x4096_o0_3840_S16x256 inb_S1024x4096_S1024x256_0_3840 15 rfl s p]

/-! ## The whole array -/

/-- The product as a function of the activations as a `[16, 4096]` matrix and of the weights. -/
def arrayOf (X : S16x4096.Idx → EReal) (W : S14336x4096.Idx → EReal) : S16x14336.Idx → EReal :=
  fun i => ∑ g : Fin 16, ∑ j : Fin 256, X (ix2 (i 0) (col g j)) * groupDeq (fun j' => W (ix2 (i 1) (col g j'))) j

/-- An entry of a staged block is the entry of the whole array it stands for: if the staged activations' row `y 0` is
    the matrix's row `i 0` and the staged weights' row `y 1` is the weights' row `i 1`, the block at `y` is the array at `i`. -/
theorem block_entry (X : S16x4096.Idx → EReal) (W : S14336x4096.Idx → EReal) (x0 : FVec Ideal S16x4096 .f32)
    (x1 : FVec Ideal S1024x4096 .f32) (y : S16x1024.Idx) (i : S16x14336.Idx)
    (h0 : ∀ k : Fin 4096, x0 (ix2 (y 0) k) = X (ix2 (i 0) k)) (h1 : ∀ k : Fin 4096, x1 (ix2 (y 1) k) = W (ix2 (i 1) k)) :
    blockAcc (F := Ideal) x0 x1 y = arrayOf X W i := by
  obtain ⟨s, p, rfl⟩ : ∃ (s : Fin 16) (p : Fin 1024), y = ix2 s p := ⟨y 0, y 1, eq_ix2 y⟩
  rw [blockAcc_apply]
  unfold arrayOf
  refine Finset.sum_congr rfl fun g _ => Finset.sum_congr rfl fun j _ => ?_
  have e0 : x0 (ix2 s (col g j)) = X (ix2 (i 0) (col g j)) := h0 (col g j)
  have e1 : (fun j' => x1 (ix2 p (col g j'))) = (fun j' => W (ix2 (i 1) (col g j'))) := funext fun j' => h1 (col g j')
  rw [e0, e1]

variable (m : (ℓ : Loc nD τ sig) → Buf (Elt Ideal) ℓ) (ρ : Dev nD → PrngReg)

/-- The printed index maps over the grid: the activations' block is always block `(0, 0)`; at point `t` the weights'
    block is row block `t` and the result's block is column block `t`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What point `t` writes back is block `t` of the product of the arrays as the region finds them. -/
theorem flushed_eq (c : Dev nD) (t : Fin cfg0.N) :
    (dats m 0 c).flushed 2 t = ((cfg0.win 2).blk t).view.read (Elt Ideal) (arrayOf (V m c main_v0) (V m c main_arg1)) := by
  show (cfg0.win 2).cut (grid0.coords t) ((dats m 0 c).after 2 t) = _
  rw [after0_2, out_eq]
  obtain ⟨e00, e01, e10, e11, e20, e21⟩ := idx_facts t
  funext y
  refine block_entry (V m c main_v0) (V m c main_arg1) (iblk m c 0 t) (iblk m c 1 t) y (((cfg0.win 2).blk t).view.emb y)
    (fun k => ?_) (fun k => ?_)
  · show V m c main_v0 (((cfg0.win 0).blk t).view.emb (ix2 (y 0) k)) = V m c main_v0 (ix2 ((((cfg0.win 2).blk t).view.emb y) 0) k)
    refine congrArg (V m c main_v0) (funext fun a => Fin.ext ?_)
    match a with
    | ⟨0, _⟩ =>
      show win0_0.index t (0 : Fin 2) * 16 + 1 * (y 0).val = win0_2.index t (0 : Fin 2) * 16 + 1 * (y 0).val
      omega
    | ⟨1, _⟩ =>
      show win0_0.index t (1 : Fin 2) * 4096 + 1 * k.val = k.val
      omega
  · show V m c main_arg1 (((cfg0.win 1).blk t).view.emb (ix2 (y 1) k)) = V m c main_arg1 (ix2 ((((cfg0.win 2).blk t).view.emb y) 1) k)
    refine congrArg (V m c main_arg1) (funext fun a => Fin.ext ?_)
    match a with
    | ⟨0, _⟩ =>
      show win0_1.index t (0 : Fin 2) * 1024 + 1 * (y 1).val = win0_2.index t (1 : Fin 2) * 1024 + 1 * (y 1).val
      omega
    | ⟨1, _⟩ =>
      show win0_1.index t (1 : Fin 2) * 4096 + 1 * k.val = k.val
      omega

/-- An index of the array is in point `t`'s block iff each coordinate is in the block's range on its axis. -/
theorem mem_blk (t : Fin cfg0.N) (i : S16x14336.Idx) :
    i ∈ ((cfg0.win 2).blk t).view.set ↔ ∀ a : Fin 2, win0_2.index t a * S16x1024.size a ≤ (i a).val ∧ (i a).val < win0_2.index t a * S16x1024.size a + S16x1024.size a := by
  show i ∈ ((View.whole main_v1).slice (win0_2.rect t)).set ↔ _
  rw [View.set_slice_whole, Rect.mem_set_unit]
  exact Iff.rfl

/-- Every index of the array is in the block of the point its column falls to, `t = column / 1024`. -/
theorem cover (i : S16x14336.Idx) : ∃ t : Fin cfg0.N, (cfg0.win 2).flush t = true ∧ i ∈ ((cfg0.win 2).blk t).view.set := by
  have hi0 : (i 0).val < 16 := (i 0).isLt
  have hi1 : (i 1).val < 14336 := (i 1).isLt
  have hN : grid0.N = 14 := N_0
  let t : Fin cfg0.N := ⟨(i 1).val / 1024, by show (i 1).val / 1024 < grid0.N; omega⟩
  refine ⟨t, flush0_2 t, ?_⟩
  obtain ⟨e00, e01, e10, e11, e20, e21⟩ := idx_facts t
  have ht : t.val = (i 1).val / 1024 := rfl
  rw [mem_blk]
  intro a
  match a with
  | ⟨0, _⟩ =>
    show win0_2.index t (0 : Fin 2) * 16 ≤ (i 0).val ∧ (i 0).val < win0_2.index t (0 : Fin 2) * 16 + 16
    omega
  | ⟨1, _⟩ =>
    show win0_2.index t (1 : Fin 2) * 1024 ≤ (i 1).val ∧ (i 1).val < win0_2.index t (1 : Fin 2) * 1024 + 1024
    omega

/-- After the run the array holds the product of the arrays as the region finds them. -/
theorem final (c : Dev nD) : (dats m 0 c).arrAt 2 cfg0.N = arrayOf (V m c main_v0) (V m c main_arg1) :=
  (dats m 0 c).arrAt_eq_of_cover 2 (arrayOf (V m c main_v0) (V m c main_arg1)) (fun t _ => flushed_eq m c t) cover

/-- Before the region the program drops the activations' leading unit axis: the matrix's `(s, k)` is the argument's `(0, s, k)`. -/
theorem xmat_apply (c : Dev nD) (s : Fin 16) (k : Fin 4096) :
    V m c main_v0 (ix2 s k) = m ((c : Thread nD τ).loc main_arg0) (ix3 0 s k) := by
  have e : (V m c main_v0 : S16x4096.Idx → EReal)
      = shapeCast S16x4096 (m ((c : Thread nD τ).loc main_arg0)) shapeCasts_S1x16x4096_S16x4096 := by
    show StableHlo.after hostOps0 (fun b => m (c, b)) (Proc.devRef .tc main_v0) = _
    after_results
    rfl
  rw [e]
  exact shapeCast_1ab_ab_apply _ shapeCasts_S1x16x4096_S16x4096 s k

/-- So the array is the specification of the two arguments. -/
theorem array_eq (c : Dev nD) :
    arrayOf (V m c main_v0) (V m c main_arg1) = G (m ((c : Thread nD τ).loc main_arg0)) (m ((c : Thread nD τ).loc main_arg1)) := by
  funext i
  unfold arrayOf G groupDot wgroup
  rw [V_main_arg1]
  refine Finset.sum_congr rfl fun g _ => Finset.sum_congr rfl fun j _ => ?_
  exact congrArg (fun t => t * groupDeq (fun j' => m ((c : Thread nD τ).loc main_arg1) (ix2 (i 1) (col g j'))) j)
    (xmat_apply m c (i 0) (col g j))

/-- The program's result: the array with a leading unit axis. -/
def resultOf (x : S1x16x4096.Idx → EReal) (w : S14336x4096.Idx → EReal) : S1x16x14336.Idx → EReal :=
  broadcastInDim (s := S16x14336) S1x16x14336 ![1, 2] bcast_S16x14336_S1x16x14336_1_2 (G x w)

/-- What the line after the region leaves in the result buffer. -/
theorem tail_eq (c : Dev nD) :
    Pipeline.afterTail₀ cfgs (dats m) 0 (V0 m) [hostOps1] c main_v2
      = resultOf (m ((c : Thread nD τ).loc main_arg0)) (m ((c : Thread nD τ).loc main_arg1)) := by
  unfold Pipeline.afterTail₀ resultOf
  show StableHlo.after hostOps1 _ (Proc.devRef .tc main_v2) = _
  after_results
  refine congrArg (broadcastInDim (s := S16x14336) S1x16x14336 ![1, 2] bcast_S16x14336_S1x16x14336_1_2) ?_
  exact (Pipeline.withArrays_arr spec0 launch0.win.arr_inj c _ _ 2).trans ((final m c).trans (array_eq m c))

/-- Every weakly fair execution ends with the result buffer at the specification of the arguments, with its leading
    unit axis, and the arguments unchanged. -/
theorem run : θ_run defs (onTc (τ := τ) (main (F := Ideal))) ⟨m, fun _ => 0, ρ⟩ fun r => ∀ c : Dev nD,
      r.2.mem ((c.tc : Thread nD τ).loc main_v2) = resultOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.KernelValue

end
-- ==== Proof.lean ====
/-
  A 4-bit group-quantised linear layer, computed tile by tile, against its plain description.

  Both programs take activations `x : [1, 16, 4096]` and weights `w : [14336, 4096]`.  Each weight row is cut into
  16 groups of 256 entries; a group is scaled by `σ = max (max |·| / 7) ε`, each entry divided by `σ`, rounded to the
  nearest integer (ties to even), clipped to `[-8, 7]` and multiplied by `σ` again; the result `[1, 16, 14336]` is the
  product of the activations with the dequantised weights, transposed.

  The reference dequantises the whole matrix and contracts all 4096 columns at once.  The kernel walks the 14336
  output columns in 14 tiles of 1024; in a tile it dequantises one group of 256 columns at a time, multiplies the
  facing 16 × 256 slice of the activations by it, and adds the 16 partial products to an accumulator that starts at
  zero.  On the extended reals the changes of float format are the identity and every other operation is the same
  function on both sides, entry by entry, so the two results differ only in how the sum over the 4096 columns is
  bracketed: `0 + (group 0) + … + (group 15)` against one sum.  Addition on the extended reals is commutative and
  associative, so the two agree for all inputs and the finiteness of the inputs is never used.

  The pieces: Proof/GroupQuant.lean states the result as one function `G` of the two arguments and the two index laws;
  Proof/RefValue.lean reads the reference's contraction as `G`; Proof/BlockValue.lean reads one group's product in a
  tile at an index; Proof/KernelValue.lean adds the 16 groups, lays the 14 tiles over the array and carries the array
  through the program's last line.  The frames are the generated ones (the reference's is its generated run with the
  result dropped), and the idealised kernel is the kernel's own text, so there is nothing to preserve.
-/
import proofs.«129214_j54803782697499_1_alg».proof.Defs
import proofs.«129214_j54803782697499_1_alg».proof.Proof.Gen.Kernel
import proofs.«129214_j54803782697499_1_alg».proof.Proof.Gen.Kernel.Skeleton
import proofs.«129214_j54803782697499_1_alg».proof.Proof.Gen.Kernel.Launch
import proofs.«129214_j54803782697499_1_alg».proof.Proof.Gen.Kernel.Points
import proofs.«129214_j54803782697499_1_alg».proof.Proof.Gen.Kernel.Frame
import proofs.«129214_j54803782697499_1_alg».proof.Proof.Gen.KernelIdeal
import proofs.«129214_j54803782697499_1_alg».proof.Proof.Gen.KernelIdeal.Skeleton
import proofs.«129214_j54803782697499_1_alg».proof.Proof.Gen.KernelIdeal.Launch
import proofs.«129214_j54803782697499_1_alg».proof.Proof.Gen.KernelIdeal.Points
import proofs.«129214_j54803782697499_1_alg».proof.Proof.Gen.KernelIdeal.Frame
import proofs.«129214_j54803782697499_1_alg».proof.Proof.Gen.ReferenceIdeal
import proofs.«129214_j54803782697499_1_alg».proof.Proof.Gen.Pre_finite_inputs
import proofs.«129214_j54803782697499_1_alg».proof.Proof.Gen.ReferenceIdeal.Run
import proofs.«129214_j54803782697499_1_alg».proof.Proof.Gen.ReferenceIdeal.Read
import proofs.«129214_j54803782697499_1_alg».proof.Proof.GroupQuant
import proofs.«129214_j54803782697499_1_alg».proof.Proof.RefValue
import proofs.«129214_j54803782697499_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealised kernel is the kernel's text read on the extended reals: no rewrite was applied. -/
theorem preserves : Cert.preserves_Kernel_KernelIdeal := trivial

/-- From arguments that agree, the kernel's result is `G` of them with a leading unit axis (the tiles, added up and
    laid over the array), and so is the reference's (its one contraction, regrouped). -/
theorem algebraic : Cert.algebraic_KernelIdeal_ReferenceIdeal := by
  intro m ρ m' ρ' _ hagree
  refine ⟨fun c => Cert.KernelIdeal.KernelValue.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  unfold Cert.ReferenceIdeal.Read.val_main_v17 Cert.KernelIdeal.KernelValue.resultOf
  rw [Cert.ReferenceIdeal.RefValue.product_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
